-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S256 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩
abbrev S11008x4096x1 : Shape := ⟨3, ![11008, 4096, 1]⟩
abbrev S8192x4096 : Shape := ⟨2, ![8192, 4096]⟩
abbrev S1x11008 : Shape := ⟨2, ![1, 11008]⟩
abbrev S8192x11008 : Shape := ⟨2, ![8192, 11008]⟩
abbrev S512x256 : Shape := ⟨2, ![512, 256]⟩
abbrev S5504x256 : Shape := ⟨2, ![5504, 256]⟩
abbrev S1x5504 : Shape := ⟨2, ![1, 5504]⟩
abbrev S512x5504 : Shape := ⟨2, ![512, 5504]⟩
abbrev S4x2048x11008 : Shape := ⟨3, ![4, 2048, 11008]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S256, .f32⟩
  | .hbm, ⟨3, _⟩ => ⟨S11008, .f32⟩
  | .hbm, ⟨4, _⟩ => ⟨S_, .i32⟩
  | .hbm, ⟨5, _⟩ => ⟨S11008x4096, .i32⟩
  | .hbm, ⟨6, _⟩ => ⟨S11008x4096, .i1⟩
  | .hbm, ⟨7, _⟩ => ⟨S_, .i32⟩
  | .hbm, ⟨8, _⟩ => ⟨S11008x4096, .i32⟩
  | .hbm, ⟨9, _⟩ => ⟨S11008x4096, .i32⟩
  | .hbm, ⟨10, _⟩ => ⟨S11008x4096, .i32⟩
  | .hbm, ⟨11, _⟩ => ⟨S11008x4096x1, .i32⟩
  | .hbm, ⟨12, _⟩ => ⟨S11008x4096, .f32⟩
  | .hbm, ⟨13, _⟩ => ⟨S11008x4096, .bf16⟩
  | .hbm, ⟨14, _⟩ => ⟨S8192x4096, .f32⟩
  | .hbm, ⟨15, _⟩ => ⟨S8192x4096, .bf16⟩
  | .hbm, ⟨16, _⟩ => ⟨S1x11008, .f32⟩
  | .hbm, ⟨17, _⟩ => ⟨S8192x11008, .f32⟩
  | .hbm, ⟨18, _⟩ => ⟨S4x2048x11008, .f32⟩
  | .local _ .vmem, ⟨0, _⟩ => ⟨S512x256, .bf16⟩
  | .local _ .vmem, ⟨1, _⟩ => ⟨S512x256, .bf16⟩
  | .local _ .vmem, ⟨2, _⟩ => ⟨S5504x256, .bf16⟩
  | .local _ .vmem, ⟨3, _⟩ => ⟨S5504x256, .bf16⟩
  | .local _ .vmem, ⟨4, _⟩ => ⟨S1x5504, .f32⟩
  | .local _ .vmem, ⟨5, _⟩ => ⟨S1x5504, .f32⟩
  | .local _ .vmem, ⟨6, _⟩ => ⟨S512x5504, .f32⟩
  | .local _ .vmem, ⟨7, _⟩ => ⟨S512x5504, .f32⟩
  | .local _ .vmem, ⟨8, _⟩ => ⟨S512x5504, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  bitsLt_bf16_f32 : FTy.bits .bf16 < FTy.bits .f32
  shapeCasts_S4x2048x4096_S8192x4096 : S4x2048x4096.ShapeCasts S8192x4096
  shapeCasts_S11008_S1x11008 : S11008.ShapeCasts S1x11008
  inb_S512x5504_S512x5504_0_0 : ∀ a, (![0, 0] : Fin 2 → Nat) a + S512x5504.size a ≤ S512x5504.size a
  h_S512x5504 : 0 < S512x5504.numel
  shapeCasts_S512x5504_S512x5504 : S512x5504.ShapeCasts S512x5504
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5504x256_S5504x256_0_0 : ∀ a, (![0, 0] : Fin 2 → Nat) a + S5504x256.size a ≤ S5504x256.size a
  h_S5504x256 : 0 < S5504x256.numel
  shapeCasts_S5504x256_S5504x256 : S5504x256.ShapeCasts S5504x256
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S512x5504 : S1x5504.Broadcasts S512x5504
  shapeCasts_S8192x11008_S4x2048x11008 : S8192x11008.ShapeCasts S4x2048x11008
  gather_S256_S11008x4096x1_S11008x4096_n_0_n_n_0_2_1_wf : GatherDims.WF S256 S11008x4096x1 S11008x4096 [] [0] [] [0] [] 2 ![1]
  dot_S512x256_S5504x256_S512x5504_1_1_0_0_n_n_wf : DotDims.WF S512x256 S5504x256 S512x5504 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .bf16 = 32 ∨ (Rect.block (s := S8192x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5504x256.size a ≤ S11008x4096.size a
  hwx0_1 : ∀ i : grid0.Coords, EltTy.bits .bf16 = 32 ∨ (Rect.block (s := S11008x4096) S5504x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x5504.size a ≤ S8192x11008.size a
  hwx0_3 : ∀ i : grid0.Coords, EltTy.bits .f32 = 32 ∨ (Rect.block (s := S8192x11008) S512x5504.size (cc0_transform_3 i) (hinb0_3 i)).WholeWords (EltTy.packing .f32)

variable [Facts₀]

def gather_S256_S11008x4096x1_S11008x4096_n_0_n_n_0_2_1 : GatherDims S256 S11008x4096x1 S11008x4096 where
  offsetDims := []
  collapsedSliceDims := [0]
  operandBatchingDims := []
  startIndicesBatchingDims := []
  startIndexMap := [0]
  indexVectorDim := 2
  sliceSizes := ![1]
  wf := gather_S256_S11008x4096x1_S11008x4096_n_0_n_n_0_2_1_wf
def dot_S512x256_S5504x256_S512x5504_1_1_0_0_n_n : DotDims S512x256 S5504x256 S512x5504 where
  lhsContracting := [1]
  rhsContracting := [1]
  lhsNonContracting := [0]
  rhsNonContracting := [0]
  lhsBatch := []
  rhsBatch := []
  wf := dot_S512x256_S5504x256_S512x5504_1_1_0_0_n_n_wf

abbrev win0_0 : Pipeline.Window sig grid0 :=
  Pipeline.Window.ofSpec (Memref.whole main_v9) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5504x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩
abbrev S11008x4096x1 : Shape := ⟨3, ![11008, 4096, 1]⟩
abbrev S8192x4096 : Shape := ⟨2, ![8192, 4096]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S256, .f32⟩
  | .hbm, ⟨3, _⟩ => ⟨S11008, .f32⟩
  | .hbm, ⟨4, _⟩ => ⟨S_, .i32⟩
  | .hbm, ⟨5, _⟩ => ⟨S11008x4096, .i32⟩
  | .hbm, ⟨6, _⟩ => ⟨S11008x4096, .i1⟩
  | .hbm, ⟨7, _⟩ => ⟨S_, .i32⟩
  | .hbm, ⟨8, _⟩ => ⟨S11008x4096, .i32⟩
  | .hbm, ⟨9, _⟩ => ⟨S11008x4096, .i32⟩
  | .hbm, ⟨10, _⟩ => ⟨S11008x4096, .i32⟩
  | .hbm, ⟨11, _⟩ => ⟨S11008x4096x1, .i32⟩
  | .hbm, ⟨12, _⟩ => ⟨S11008x4096, .f32⟩
  | .hbm, ⟨13, _⟩ => ⟨S8192x4096, .f32⟩
  | .hbm, ⟨14, _⟩ => ⟨S8192x11008, .f32⟩
  | .hbm, ⟨15, _⟩ => ⟨S4x2048x11008, .f32⟩
  | .hbm, ⟨16, _⟩ => ⟨S1x1x11008, .f32⟩
  | .hbm, ⟨17, _⟩ => ⟨S4x2048x11008, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S4x2048x4096_S8192x4096 : S4x2048x4096.ShapeCasts S8192x4096
  shapeCasts_S8192x11008_S4x2048x11008 : S8192x11008.ShapeCasts S4x2048x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S256_S11008x4096x1_S11008x4096_n_0_n_n_0_2_1_wf : GatherDims.WF S256 S11008x4096x1 S11008x4096 [] [0] [] [0] [] 2 ![1]
  dot_S8192x4096_S11008x4096_S8192x11008_1_1_0_0_n_n_wf : DotDims.WF S8192x4096 S11008x4096 S8192x11008 [1] [1] [0] [0] [] []

variable [Facts₀]

def gather_S256_S11008x4096x1_S11008x4096_n_0_n_n_0_2_1 : GatherDims S256 S11008x4096x1 S11008x4096 where
  offsetDims := []
  collapsedSliceDims := [0]
  operandBatchingDims := []
  startIndicesBatchingDims := []
  startIndexMap := [0]
  indexVectorDim := 2
  sliceSizes := ![1]
  wf := gather_S256_S11008x4096x1_S11008x4096_n_0_n_n_0_2_1_wf
def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Spec.lean ====
/-
  The mathematics of a dense layer `y = x · Wᵀ + b` over the extended reals, computed two ways.

  The whole-array form: entry (r, n) of the [8192, 11008] product is the sum over all 4096 contraction
  positions of `X (r, k) · W (n, k)`, plus the bias entry `b n`.

  The accumulated form: the contraction axis is cut into 16 consecutive stretches of 256 positions;
  an accumulator starts from zero, each stretch adds its partial sum of 256 products, and the bias is
  added once after the last stretch.  Addition of extended reals is associative and commutative and
  `0` is neutral, so a sum over `range (256 · (j + 1))` splits into the sum over `range (256 · j)`
  plus the next 256 terms; after 16 stretches the accumulator is the whole sum.  No distributivity is
  used, hence no finiteness of the entries is needed.

  `layer` is the same on a batch: the leading two axes [4, 2048] of the activations are flattened to
  8192 rows before the product and restored after it.
-/
import Idealize.ShloMosaic.Lib.ValueIdx
import Idealize.ShloMosaic.Lib.Pipeline.Value
import Idealize.ShloMosaic.PureOps.Ideal.Laws

noncomputable section

namespace Cert.DenseAcc

open Idealize.ShloMosaic Idealize.ShloMosaic.ValueIdx

abbrev SX : Shape := ⟨2, ![8192, 4096]⟩
abbrev SW : Shape := ⟨2, ![11008, 4096]⟩
abbrev SO : Shape := ⟨2, ![8192, 11008]⟩

/-- A natural number read as a contraction position (positions below 4096 are themselves). -/
def kpos (k : ℕ) : Fin 4096 := ⟨k % 4096, Nat.mod_lt _ (by decide)⟩

theorem kpos_val (k : Fin 4096) : kpos k.val = k := Fin.ext (Nat.mod_eq_of_lt k.isLt)

theorem kpos_block (j : ℕ) (hj : j < 16) (kk : Fin 256) (h : j * 256 + kk.val < 4096) :
    kpos (256 * j + kk.val) = ⟨j * 256 + kk.val, h⟩ :=
  Fin.ext (by show (256 * j + kk.val) % 4096 = j * 256 + kk.val; have := kk.isLt; omega)

/-- The product at contraction position `k` for output entry (r, n). -/
def term (X : SX.Idx → EReal) (W : SW.Idx → EReal) (r : Fin 8192) (n : Fin 11008) (k : ℕ) : EReal :=
  X (ix2 r (kpos k)) * W (ix2 n (kpos k))

/-- The accumulator for entry (r, n) after `j` stretches of 256 contraction positions. -/
def acc (X : SX.Idx → EReal) (W : SW.Idx → EReal) (r : Fin 8192) (n : Fin 11008) (j : ℕ) : EReal :=
  ∑ k ∈ Finset.range (256 * j), term X W r n k

theorem acc_zero (X : SX.Idx → EReal) (W : SW.Idx → EReal) (r : Fin 8192) (n : Fin 11008) :
    acc X W r n 0 = 0 := by
  unfold acc; rw [Nat.mul_zero, Finset.range_zero, Finset.sum_empty]

/-- One more stretch: the accumulator grows by the stretch's 256 products. -/
theorem acc_succ (X : SX.Idx → EReal) (W : SW.Idx → EReal) (r : Fin 8192) (n : Fin 11008) (j : ℕ) :
    acc X W r n (j + 1) = acc X W r n j + ∑ kk : Fin 256, term X W r n (256 * j + kk.val) := by
  unfold acc
  rw [show 256 * (j + 1) = 256 * j + 256 from by ring, Finset.sum_range_add]
  exact congrArg _ (Finset.sum_range fun x => term X W r n (256 * j + x))

/-- After all 16 stretches the accumulator is the sum over the whole contraction axis. -/
theorem acc_full (X : SX.Idx → EReal) (W : SW.Idx → EReal) (r : Fin 8192) (n : Fin 11008) :
    acc X W r n 16 = ∑ k : Fin 4096, X (ix2 r k) * W (ix2 n k) := by
  unfold acc
  rw [show 256 * 16 = 4096 from rfl, Finset.sum_range]
  exact Finset.sum_congr rfl fun k _ => by unfold term; rw [kpos_val]

/-- The dense layer, whole: entry (r, n) is `∑ₖ X (r, k) · W (n, k) + b n`. -/
def dense (X : SX.Idx → EReal) (W : SW.Idx → EReal) (b : Fin 11008 → EReal) : SO.Idx → EReal :=
  fun j => (∑ k : Fin 4096, X (ix2 (j 0) k) * W (ix2 (j 1) k)) + b (j 1)

theorem dense_apply (X : SX.Idx → EReal) (W : SW.Idx → EReal) (b : Fin 11008 → EReal) (r : Fin 8192) (n : Fin 11008) :
    dense X W b (ix2 r n) = acc X W r n 16 + b n := by
  rw [acc_full]; rfl

abbrev SX3 : Shape := ⟨3, ![4, 2048, 4096]⟩
abbrev SO3 : Shape := ⟨3, ![4, 2048, 11008]⟩
abbrev SB : Shape := ⟨1, ![11008]⟩

/-- The layer on batched activations: the [4, 2048, 4096] input is flattened to [8192, 4096] rows, the dense
    layer is applied with the bias vector `b`, and the [8192, 11008] result is unflattened to [4, 2048, 11008].
    (`hx`, `ho`: the two changes of shape keep the number of entries.) -/
def layer (x : SX3.Idx → EReal) (W : SW.Idx → EReal) (b : SB.Idx → EReal) (hx : SX3.ShapeCasts SX) (ho : SO.ShapeCasts SO3) :
    SO3.Idx → EReal :=
  shapeCast SO3 (dense (shapeCast SX x hx) W (fun n => b (ix1 n))) ho

end Cert.DenseAcc

end
-- ==== Proof.Payload.lean ====
/-
  The body's three stored values read entry by entry, over the extended reals.

    * the reset block is `0` everywhere;
    * the accumulation step `a + x · wᵀ` at (p, q) is `a (p, q) + ∑ₖ x (p, k) · w (q, k)`, the sum over
      the 256 contraction positions of the stretch: a matrix product into a zero accumulator is the
      plain sum of products, both operands contracted along their second axis;
    * the final block at (p, q) is the accumulator there plus the bias row's entry `q`: broadcasting a
      [1, 5504] row down 512 rows reads row 0.
  Changes of shape between equal shapes are the identity.
-/
import proofs.«134942_j24704651886628_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The reset block is zero at every entry. -/
theorem zero_apply (j : S512x5504.Idx) : k0_pay1 (F := Ideal) j = 0 := by
  unfold k0_pay1
  rw [shapeCast_self]
  show Ideal.ofBits .f32 0x00000000#32 = 0
  exact Ideal.ofBits_zero_f32

theorem lhs_axis0 (i : S512x5504.Idx) (q : dot_S512x256_S5504x256_S512x5504_1_1_0_0_n_n.contr.Idx) :
    (dot_S512x256_S5504x256_S512x5504_1_1_0_0_n_n.lhsIdx i q 0).val = (i 0).val := by
  unfold DotDims.lhsIdx
  rw [dif_neg (show ¬(0 : Fin S512x256.rank) ∈ dot_S512x256_S5504x256_S512x5504_1_1_0_0_n_n.lhsBatch by decide), dif_pos (show (0 : Fin S512x256.rank) ∈ dot_S512x256_S5504x256_S512x5504_1_1_0_0_n_n.lhsNonContracting by decide)]
  rfl
theorem lhs_axis1 (i : S512x5504.Idx) (q : dot_S512x256_S5504x256_S512x5504_1_1_0_0_n_n.contr.Idx) :
    (dot_S512x256_S5504x256_S512x5504_1_1_0_0_n_n.lhsIdx i q 1).val = (q ⟨0, by decide⟩).val :=
  dot_S512x256_S5504x256_S512x5504_1_1_0_0_n_n.lhsIdx_val_of_single rfl i q
theorem rhs_axis0 (i : S512x5504.Idx) (q : dot_S512x256_S5504x256_S512x5504_1_1_0_0_n_n.contr.Idx) :
    (dot_S512x256_S5504x256_S512x5504_1_1_0_0_n_n.rhsIdx i q 0).val = (i 1).val := by
  unfold DotDims.rhsIdx
  rw [dif_neg (show ¬(0 : Fin S5504x256.rank) ∈ dot_S512x256_S5504x256_S512x5504_1_1_0_0_n_n.rhsBatch by decide), dif_pos (show (0 : Fin S5504x256.rank) ∈ dot_S512x256_S5504x256_S512x5504_1_1_0_0_n_n.rhsNonContracting by decide)]
  rfl
theorem rhs_axis1 (i : S512x5504.Idx) (q : dot_S512x256_S5504x256_S512x5504_1_1_0_0_n_n.contr.Idx) :
    (dot_S512x256_S5504x256_S512x5504_1_1_0_0_n_n.rhsIdx i q 1).val = (q ⟨0, by decide⟩).val :=
  dot_S512x256_S5504x256_S512x5504_1_1_0_0_n_n.rhsIdx_val_of_single rfl i q

/-- The block product into a zero accumulator, at (p, q): the sum over the stretch of `x (p, k) · w (q, k)`. -/
theorem product_apply (x : FVec Ideal S512x256 .bf16) (w : FVec Ideal S5504x256 .bf16) (p : Fin 512) (q : Fin 5504) :
    matmul dot_S512x256_S5504x256_S512x5504_1_1_0_0_n_n none x w (constant S512x5504 .f32 0x00000000#32) (ix2 p q)
      = ∑ k : Fin 256, x (ix2 p k) * w (ix2 q k) := by
  simp only [matmul]
  rw [Ideal.matmul_constant_zero_apply, ← Equiv.sum_comp (ValueIdx.contrEquiv1 dot_S512x256_S5504x256_S512x5504_1_1_0_0_n_n 256 rfl rfl).symm]
  refine Finset.sum_congr rfl fun k _ => ?_
  have hk := ValueIdx.contrEquiv1_symm_val dot_S512x256_S5504x256_S512x5504_1_1_0_0_n_n 256 rfl rfl k
  have el : dot_S512x256_S5504x256_S512x5504_1_1_0_0_n_n.lhsIdx (ix2 p q) ((ValueIdx.contrEquiv1 dot_S512x256_S5504x256_S512x5504_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S512x256_S5504x256_S512x5504_1_1_0_0_n_n.rhsIdx (ix2 p q) ((ValueIdx.contrEquiv1 dot_S512x256_S5504x256_S512x5504_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-- The accumulation step at (p, q). -/
theorem step_apply (a : Vec Ideal S512x5504 .f32) (x : Vec Ideal S512x256 .bf16) (w : Vec Ideal S5504x256 .bf16)
    (p : Fin 512) (q : Fin 5504) :
    k0_pay2 (F := Ideal) a x w (ix2 p q) = a (ix2 p q) + ∑ k : Fin 256, x (ix2 p k) * w (ix2 q k) := by
  unfold k0_pay2
  rw [shapeCast_self, shapeCast_self, shapeCast_self]
  show a (ix2 p q) + matmul (F := Ideal) dot_S512x256_S5504x256_S512x5504_1_1_0_0_n_n none x w (constant (F := Ideal) S512x5504 .f32 0x00000000#32) (ix2 p q) = _
  rw [product_apply]

/-- The final block at (p, q): the accumulator plus the bias row's entry `q`. -/
theorem bias_apply (a : Vec Ideal S512x5504 .f32) (b : Vec Ideal S1x5504 .f32) (p : Fin 512) (q : Fin 5504) :
    k0_pay3 (F := Ideal) a b (ix2 p q) = a (ix2 p q) + b (ix2 0 q) := by
  unfold k0_pay3
  rw [shapeCast_self]
  show a (ix2 p q) + broadcastTo S512x5504 b broadcasts_S1x5504_S512x5504 (ix2 p q) = _
  rw [broadcastTo_apply b broadcasts_S1x5504_S512x5504 (ix2 p q) (ix2 0 q) (fun a => by
    match a with
    | ⟨0, _⟩ => show (0 : ℕ) = if (1 : ℕ) = 1 then 0 else _; rw [if_pos rfl]
    | ⟨1, _⟩ => show q.val = if (5504 : ℕ) = 1 then 0 else q.val; rw [if_neg (by decide)])]

end Cert.KernelIdeal.Payload

end
-- ==== Proof.Pieces.lean ====
/-
  What one run of the kernel body leaves behind, as values of what it loaded.

  The body keeps a running [512, 5504] accumulator in a scratch buffer.  Writing `step a x w` for
  `a + x · wᵀ` (the body's second payload) and `zero` for the all-zero block (its first payload):
    * at the first contraction stretch the scratch is reset and ends at `step zero x w`;
    * at a middle stretch it ends at `step a x w` of what the point before left, `a`;
    * at the last stretch likewise, and the output block receives `step a x w + bias` (third payload),
      the bias row broadcast down the 512 rows.
  Every store covers its whole buffer and every load reads a whole buffer, so each buffer's final
  contents are the last stored payload.
-/
import proofs.«134942_j24704651886628_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First stretch: the scratch is reset to zero, read back, and ends at `zero + x · wᵀ`. -/
theorem scratch_first (c : Dev nD) (i : grid0.Coords) (a3 : Memref sig .tc .vmem S512x256 .bf16) (h3 : a3.IsWhole) (a4 : Memref sig .tc .vmem S5504x256 .bf16) (h4 : a4.IsWhole) (a5 : Memref sig .tc .vmem S1x5504 .f32) (h5 : a5.IsWhole) (a6 : Memref sig .tc .vmem S512x5504 .f32) (h6 : a6.IsWhole) (a7 : Memref sig .tc .vmem S512x5504 .f32) (h7 : a7.IsWhole) (hc0 : cond0_0 i) (hc1 : ¬cond0_1 i)
    (x0 : Vec F S512x256 .bf16) (x1 : Vec F S5504x256 .bf16) (x2 : Vec F S1x5504 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x5504) hz, View.readCov_unit_zero (S := S512x5504) _ hz]
  simp only [View.readAt_eq_ld, h3.read_unread, h4.read_unread, View.ld_unit_zero (S := S512x256) hz,
    View.ld_unit_zero (S := S5504x256) hz]

/-- A middle stretch: the scratch ends at `a + x · wᵀ` of what it held, `a`. -/
theorem scratch_middle (c : Dev nD) (i : grid0.Coords) (a3 : Memref sig .tc .vmem S512x256 .bf16) (h3 : a3.IsWhole) (a4 : Memref sig .tc .vmem S5504x256 .bf16) (h4 : a4.IsWhole) (a5 : Memref sig .tc .vmem S1x5504 .f32) (h5 : a5.IsWhole) (a6 : Memref sig .tc .vmem S512x5504 .f32) (h6 : a6.IsWhole) (a7 : Memref sig .tc .vmem S512x5504 .f32) (h7 : a7.IsWhole) (hc0 : ¬cond0_0 i) (hc1 : ¬cond0_1 i)
    (x0 : Vec F S512x256 .bf16) (x1 : Vec F S5504x256 .bf16) (x2 : Vec F S1x5504 .f32) (xs0 : Vec F S512x5504 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S512x256) hz,
    View.ld_unit_zero (S := S5504x256) hz, View.ld_unit_zero (S := S512x5504) hz]

/-- The last stretch: the scratch ends at `a + x · wᵀ` as in the middle, -/
theorem scratch_last (c : Dev nD) (i : grid0.Coords) (a3 : Memref sig .tc .vmem S512x256 .bf16) (h3 : a3.IsWhole) (a4 : Memref sig .tc .vmem S5504x256 .bf16) (h4 : a4.IsWhole) (a5 : Memref sig .tc .vmem S1x5504 .f32) (h5 : a5.IsWhole) (a6 : Memref sig .tc .vmem S512x5504 .f32) (h6 : a6.IsWhole) (a7 : Memref sig .tc .vmem S512x5504 .f32) (h7 : a7.IsWhole) (hc0 : ¬cond0_0 i) (hc1 : cond0_1 i)
    (x0 : Vec F S512x256 .bf16) (x1 : Vec F S5504x256 .bf16) (x2 : Vec F S1x5504 .f32) (xs0 : Vec F S512x5504 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S512x256) hz,
    View.ld_unit_zero (S := S5504x256) hz, View.ld_unit_zero (S := S512x5504) hz]

/-- and the output block is that accumulator, read back, plus the broadcast bias row. -/
theorem out_last (c : Dev nD) (i : grid0.Coords) (a3 : Memref sig .tc .vmem S512x256 .bf16) (h3 : a3.IsWhole) (a4 : Memref sig .tc .vmem S5504x256 .bf16) (h4 : a4.IsWhole) (a5 : Memref sig .tc .vmem S1x5504 .f32) (h5 : a5.IsWhole) (a6 : Memref sig .tc .vmem S512x5504 .f32) (h6 : a6.IsWhole) (a7 : Memref sig .tc .vmem S512x5504 .f32) (h7 : a7.IsWhole) (hc0 : ¬cond0_0 i) (hc1 : cond0_1 i)
    (x0 : Vec F S512x256 .bf16) (x1 : Vec F S5504x256 .bf16) (x2 : Vec F S1x5504 .f32) (xs0 : Vec F S512x5504 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S512x5504) _ hz, View.readAt_eq_ld, h3.read_unread, h4.read_unread,
    h5.read_unread, h7.read_unread, View.ld_unit_zero (S := S512x256) hz, View.ld_unit_zero (S := S5504x256) hz,
    View.ld_unit_zero (S := S512x5504) hz, View.ld_unit_zero (S := S1x5504) hz]

end Cert.KernelIdeal.Pieces

end
-- ==== Proof.Blocks.lean ====
/-
  The blocks the body sees at a grid point, read as entries of the whole arrays.

  The grid has 16 × 2 × 16 points; point `t` has row-block `t / 32`, column-block `t / 16 % 2` and
  contraction stretch `t % 16`.  At `t`
    * the activations' block is rows `512 · (t / 32) + p`, contraction positions `256 · (t % 16) + k`;
    * the weights' block is rows `5504 · (t / 16 % 2) + q`, the same contraction positions;
    * the bias block is row 0, columns `5504 · (t / 16 % 2) + q`.
  A block's coordinate in the array is always the block index times the block extent plus the coordinate
  inside the block.
-/
import proofs.«134942_j24704651886628_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three input blocks at a point and the three arrays they are cut from, at their literal types. -/
abbrev xblk (c : Dev nD) (t : Fin cfg0.N) : Vec F S512x256 .bf16 := iblk m c 0 t
abbrev wblk (c : Dev nD) (t : Fin cfg0.N) : Vec F S5504x256 .bf16 := iblk m c 1 t
abbrev bblk (c : Dev nD) (t : Fin cfg0.N) : Vec F S1x5504 .f32 := iblk m c 2 t
abbrev xarr (c : Dev nD) : Vec F S8192x4096 .bf16 := V m c main_v9
abbrev warr (c : Dev nD) : Vec F S11008x4096 .bf16 := V m c main_v7
abbrev barr (c : Dev nD) : Vec F S1x11008 .f32 := V m c main_v10

/-- Which block each window shows at point `t`. -/
theorem index_x : ∀ t : Fin cfg0.N, win0_0.index t 0 = t.val / 32 ∧ win0_0.index t 1 = t.val % 16 :=
  (by decide +kernel : ∀ t : Fin grid0.N, win0_0.index t 0 = t.val / 32 ∧ win0_0.index t 1 = t.val % 16)
theorem index_w : ∀ t : Fin cfg0.N, win0_1.index t 0 = t.val / 16 % 2 ∧ win0_1.index t 1 = t.val % 16 :=
  (by decide +kernel : ∀ t : Fin grid0.N, win0_1.index t 0 = t.val / 16 % 2 ∧ win0_1.index t 1 = t.val % 16)
theorem index_b : ∀ t : Fin cfg0.N, win0_2.index t 0 = 0 ∧ win0_2.index t 1 = t.val / 16 % 2 :=
  (by decide +kernel : ∀ t : Fin grid0.N, win0_2.index t 0 = 0 ∧ win0_2.index t 1 = t.val / 16 % 2)
theorem index_o : ∀ t : Fin cfg0.N, win0_3.index t 0 = t.val / 32 ∧ win0_3.index t 1 = t.val / 16 % 2 :=
  (by decide +kernel : ∀ t : Fin grid0.N, win0_3.index t 0 = t.val / 32 ∧ win0_3.index t 1 = t.val / 16 % 2)

/-- The activations' block at (p, k) is the array at row `512 · (t / 32) + p`, position `256 · (t % 16) + k`. -/
theorem xblk_apply (c : Dev nD) (t : Fin cfg0.N) (p : Fin 512) (k : Fin 256) (r : Fin 8192) (kk : Fin 4096)
    (hr : r.val = t.val / 32 * 512 + p.val) (hk : kk.val = t.val % 16 * 256 + k.val) :
    xblk m c t (ix2 p k) = xarr m c (ix2 r kk) := by
  show ((cfg0.win 0).blk t).view.read (Elt F) (V m c main_v9) (ix2 p k) = V m c main_v9 (ix2 r kk)
  rw [View.read_apply]
  refine congrArg (V m c main_v9) (funext fun a => Fin.ext ?_)
  match a with
  | ⟨0, _⟩ => show win0_0.index t 0 * 512 + 1 * p.val = r.val; rw [(index_x t).1, hr]; omega
  | ⟨1, _⟩ => show win0_0.index t 1 * 256 + 1 * k.val = kk.val; rw [(index_x t).2, hk]; omega

/-- The weights' block at (q, k) is the array at row `5504 · (t / 16 % 2) + q`, position `256 · (t % 16) + k`. -/
theorem wblk_apply (c : Dev nD) (t : Fin cfg0.N) (q : Fin 5504) (k : Fin 256) (n : Fin 11008) (kk : Fin 4096)
    (hn : n.val = t.val / 16 % 2 * 5504 + q.val) (hk : kk.val = t.val % 16 * 256 + k.val) :
    wblk m c t (ix2 q k) = warr m c (ix2 n kk) := by
  show ((cfg0.win 1).blk t).view.read (Elt F) (V m c main_v7) (ix2 q k) = V m c main_v7 (ix2 n kk)
  rw [View.read_apply]
  refine congrArg (V m c main_v7) (funext fun a => Fin.ext ?_)
  match a with
  | ⟨0, _⟩ => show win0_1.index t 0 * 5504 + 1 * q.val = n.val; rw [(index_w t).1, hn]; omega
  | ⟨1, _⟩ => show win0_1.index t 1 * 256 + 1 * k.val = kk.val; rw [(index_w t).2, hk]; omega

/-- The bias block at (0, q) is the bias row at column `5504 · (t / 16 % 2) + q`. -/
theorem bblk_apply (c : Dev nD) (t : Fin cfg0.N) (q : Fin 5504) (n : Fin 11008)
    (hn : n.val = t.val / 16 % 2 * 5504 + q.val) :
    bblk m c t (ix2 0 q) = barr m c (ix2 0 n) := by
  show ((cfg0.win 2).blk t).view.read (Elt F) (V m c main_v10) (ix2 0 q) = V m c main_v10 (ix2 0 n)
  rw [View.read_apply]
  refine congrArg (V m c main_v10) (funext fun a => Fin.ext ?_)
  match a with
  | ⟨0, _⟩ => show win0_2.index t 0 * 1 + 1 * 0 = 0; rw [(index_b t).1]
  | ⟨1, _⟩ => show win0_2.index t 1 * 5504 + 1 * q.val = n.val; rw [(index_b t).2, hn]; omega

end Cert.KernelIdeal.Blocks

end
-- ==== Proof.Cases.lean ====
/-
  What the accumulator and the output block hold after each grid point, in terms of the point's blocks.

  Points are visited in order; the contraction stretch `t % 16` moves fastest.  After point `t`
    * if `t % 16 = 0` the accumulator is `zero + x_t · w_tᵀ`;
    * otherwise it is `(accumulator after t - 1) + x_t · w_tᵀ`;
    * and if `t % 16 = 15` the output block is that accumulator plus the bias block.
-/
import proofs.«134942_j24704651886628_1_alg».proof.Proof.Pieces
import proofs.«134942_j24704651886628_1_alg».proof.Proof.Blocks

noncomputable section

open Idealize.ShloMosaic Idealize.ShloMosaic.TcCoe Idealize.SL.Sem

namespace Cert.KernelIdeal.Cases

open Cert.KernelIdeal Cert.KernelIdeal.Gen Cert.KernelIdeal.Blocks

variable {F : FTy → Type} [FloatOps F]
variable (m : (ℓ : Loc nD τ sig) → Buf (Elt F) ℓ)

/-- The accumulator and the output's staging block after the `n`-th point. -/
abbrev accAfter (c : Dev nD) (n : ℕ) (h : n < cfg0.N) : Vec F S512x5504 .f32 := (outsAt0 m c n h).2
abbrev outAfter (c : Dev nD) (n : ℕ) (h : n < cfg0.N) : Vec F S512x5504 .f32 := (outsAt0 m c n h).1

theorem pred_lt (t : Fin cfg0.N) : t.val - 1 < cfg0.N := Nat.lt_of_le_of_lt (Nat.sub_le _ _) t.isLt

theorem acc_first (c : Dev nD) (t : Fin cfg0.N) (h0 : t.val % 16 = 0) (h1 : ¬t.val % 16 = 15) :
    accAfter m c t.val t.isLt = k0_pay2 (k0_pay1 (F := F)) (xblk m c t) (wblk m c t) := by
  show (outsAt0 m c t.val t.isLt).2 = _
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem acc_middle (c : Dev nD) (t : Fin cfg0.N) (h0 : ¬t.val % 16 = 0) (h1 : ¬t.val % 16 = 15) :
    accAfter m c t.val t.isLt = k0_pay2 (accAfter m c (t.val - 1) (pred_lt t)) (xblk m c t) (wblk m c t) := by
  show (outsAt0 m c t.val t.isLt).2 = _
  rw [outsAt0_B m c t h0 h1]
  dsimp only
  exact Pieces.scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (pred_lt t)).2

theorem acc_last (c : Dev nD) (t : Fin cfg0.N) (h0 : ¬t.val % 16 = 0) (h1 : t.val % 16 = 15) :
    accAfter m c t.val t.isLt = k0_pay2 (accAfter m c (t.val - 1) (pred_lt t)) (xblk m c t) (wblk m c t) := by
  show (outsAt0 m c t.val t.isLt).2 = _
  rw [outsAt0_C m c t h0 h1]
  dsimp only
  exact Pieces.scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (pred_lt t)).2

theorem out_last (c : Dev nD) (t : Fin cfg0.N) (h0 : ¬t.val % 16 = 0) (h1 : t.val % 16 = 15) :
    outAfter m c t.val t.isLt
      = k0_pay3 (k0_pay2 (accAfter m c (t.val - 1) (pred_lt t)) (xblk m c t) (wblk m c t)) (bblk m c t) := by
  show (outsAt0 m c t.val t.isLt).1 = _
  rw [outsAt0_C m c t h0 h1]
  dsimp only
  exact Pieces.out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (pred_lt t)).2

end Cert.KernelIdeal.Cases

end
-- ==== Proof.Region.lean ====
/-
  The region's result array is the dense layer of the three arrays the region finds.

  For output entry (r, n) with `r = 512 · (t / 32) + p` and `n = 5504 · (t / 16 % 2) + q`, the accumulator
  entry (p, q) after point `t` is the partial sum of the products over the first `256 · (t % 16 + 1)`
  contraction positions: by induction on the point, a first stretch starting from zero and every later
  stretch adding its 256 products to what the point before left (the row- and column-block do not change
  inside a run of 16 points).  At the last stretch the output block is the full sum plus the bias entry,
  which is what the whole-array dense layer holds at (r, n); those points write their blocks back, and
  the 16 × 2 blocks tile the array.
-/
import proofs.«134942_j24704651886628_1_alg».proof.Proof.Spec
import proofs.«134942_j24704651886628_1_alg».proof.Proof.Payload
import proofs.«134942_j24704651886628_1_alg».proof.Proof.Cases

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.KernelIdeal.Blocks Cert.KernelIdeal.Cases Cert.DenseAcc

variable (m : (ℓ : Loc nD τ sig) → Buf (Elt Ideal) ℓ)

/-- One stretch's 256 products read from the blocks are the terms at positions `256 · j + k`, `j` the stretch. -/
theorem stretch_sum (c : Dev nD) (t : Fin cfg0.N) (j : ℕ) (hj : j = t.val % 16) (p : Fin 512) (q : Fin 5504)
    (r : Fin 8192) (n : Fin 11008) (hr : r.val = t.val / 32 * 512 + p.val) (hn : n.val = t.val / 16 % 2 * 5504 + q.val) :
    ∑ k : Fin 256, xblk m c t (ix2 p k) * wblk m c t (ix2 q k)
      = ∑ k : Fin 256, term (xarr m c) (warr m c) r n (256 * j + k.val) := by
  subst hj
  refine Finset.sum_congr rfl fun k _ => ?_
  have hk : t.val % 16 * 256 + k.val < 4096 := by have := k.isLt; omega
  unfold term
  rw [kpos_block (t.val % 16) (Nat.mod_lt _ (by decide)) k hk, xblk_apply m c t p k r ⟨_, hk⟩ hr rfl,
    wblk_apply m c t q k n ⟨_, hk⟩ hn rfl]

/-- The accumulator after the `n`-th point: the partial sum over the first `256 · (n % 16 + 1)` positions. -/
theorem acc_value (c : Dev nD) : ∀ (n : ℕ) (h : n < cfg0.N) (p : Fin 512) (q : Fin 5504) (r : Fin 8192) (nn : Fin 11008),
    r.val = n / 32 * 512 + p.val → nn.val = n / 16 % 2 * 5504 + q.val →
    accAfter m c n h (ix2 p q) = acc (xarr m c) (warr m c) r nn (n % 16 + 1)
  | 0, h => fun p q r nn hr hn => by
    rw [show accAfter m c 0 h = _ from acc_first m c ⟨0, h⟩ rfl (show ¬(0 : ℕ) % 16 = 15 from by decide), Payload.step_apply, Payload.zero_apply,
      zero_add, acc_succ, acc_zero, zero_add]
    exact stretch_sum m c ⟨0, h⟩ 0 rfl p q r nn hr hn
  | n + 1, h => fun p q r nn hr hn => by
    have hN : n + 1 < 512 := lt_of_lt_of_eq h N_0
    by_cases h0 : (n + 1) % 16 = 0
    · have h1 : ¬(n + 1) % 16 = 15 := by omega
      rw [show accAfter m c (n + 1) h = _ from acc_first m c ⟨n + 1, h⟩ h0 h1, Payload.step_apply, Payload.zero_apply,
        zero_add, h0, acc_succ, acc_zero, zero_add]
      exact stretch_sum m c ⟨n + 1, h⟩ 0 h0.symm p q r nn hr hn
    · have e : accAfter m c (n + 1) h
          = k0_pay2 (accAfter m c n (Nat.lt_of_succ_lt h)) (xblk m c ⟨n + 1, h⟩) (wblk m c ⟨n + 1, h⟩) := by
        by_cases h1 : (n + 1) % 16 = 15
        · exact acc_last m c ⟨n + 1, h⟩ h0 h1
        · exact acc_middle m c ⟨n + 1, h⟩ h0 h1
      rw [e, Payload.step_apply, acc_value c n (Nat.lt_of_succ_lt h) p q r nn (by omega) (by omega),
        stretch_sum m c ⟨n + 1, h⟩ (n % 16 + 1) (by show n % 16 + 1 = (n + 1) % 16; omega) p q r nn hr hn,
        show (n + 1) % 16 + 1 = (n % 16 + 1) + 1 from by omega, acc_succ (xarr m c) (warr m c) r nn (n % 16 + 1)]

/-- The dense layer of the arrays the region finds: activations, weights, and the bias row. -/
abbrev result (c : Dev nD) : Buf (Elt Ideal) ((c : Thread nD τ).loc main_v11) :=
  dense (xarr m c) (warr m c) (fun n => barr m c (ix2 0 n))

/-- At a last stretch the output block's entry `j` is the dense layer's entry at `j`'s place in the array. -/
theorem out_value (c : Dev nD) (t : Fin cfg0.N) (h1 : t.val % 16 = 15) (j : S512x5504.Idx) (i : S8192x11008.Idx)
    (hr : (i 0).val = t.val / 32 * 512 + (j 0).val) (hn : (i 1).val = t.val / 16 % 2 * 5504 + (j 1).val) :
    outAfter m c t.val t.isLt j = result m c i := by
  obtain ⟨p, q, rfl⟩ : ∃ (p : Fin 512) (q : Fin 5504), j = ix2 p q := ⟨j 0, j 1, eq_ix2 j⟩
  obtain ⟨r, nn, rfl⟩ : ∃ (r : Fin 8192) (nn : Fin 11008), i = ix2 r nn := ⟨i 0, i 1, eq_ix2 i⟩
  have h0 : ¬t.val % 16 = 0 := by omega
  rw [out_last m c t h0 h1, Payload.bias_apply, ← acc_last m c t h0 h1, acc_value m c t.val t.isLt p q r nn hr hn, h1]
  show _ = dense (xarr m c) (warr m c) (fun n => barr m c (ix2 0 n)) (ix2 r nn)
  rw [dense_apply, bblk_apply m c t q nn hn]

/-- What a last-stretch point writes back is its block of the dense layer. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  show (cfg0.win 3).cut (grid0.coords t) ((dats m 0 c).after 3 t) = _
  rw [after0_3]
  funext j
  show outAfter m c t.val t.isLt j = result m c (((cfg0.win 3).blk t).view.emb j)
  exact out_value m c t h15 j _
    (by show win0_3.index t 0 * 512 + 1 * (j 0).val = t.val / 32 * 512 + (j 0).val; rw [(index_o t).1]; omega)
    (by show win0_3.index t 1 * 5504 + 1 * (j 1).val = t.val / 16 % 2 * 5504 + (j 1).val; rw [(index_o t).2]; omega)

/-- An entry of the array is in point `t`'s block iff each coordinate is in the block's range. -/
theorem mem_blk (t : Fin cfg0.N) (i : S8192x11008.Idx) :
    i ∈ ((cfg0.win 3).blk t).view.set ↔ ∀ a : Fin 2, win0_3.index t a * S512x5504.size a ≤ (i a).val ∧ (i a).val < win0_3.index t a * S512x5504.size a + S512x5504.size a := by
  show i ∈ ((View.whole main_v11).slice (win0_3.rect t)).set ↔ _
  rw [View.set_slice_whole, Rect.mem_set_unit]
  exact Iff.rfl

/-- Every entry (r, n) lies in the block of the last-stretch point with row-block `r / 512`, column-block `n / 5504`. -/
theorem cover (i : S8192x11008.Idx) :
    ∃ t : Fin cfg0.N, (cfg0.win 3).flush t = true ∧ i ∈ ((cfg0.win 3).blk t).view.set := by
  have h0 : (i 0).val < 8192 := (i 0).isLt
  have h1 : (i 1).val < 11008 := (i 1).isLt
  have hN : cfg0.N = 512 := N_0
  let t : Fin cfg0.N := ⟨(i 0).val / 512 * 32 + (i 1).val / 5504 * 16 + 15, by rw [hN]; omega⟩
  have ht : t.val = (i 0).val / 512 * 32 + (i 1).val / 5504 * 16 + 15 := rfl
  refine ⟨t, (flush0_3 t).mpr (by rw [ht]; omega), ?_⟩
  rw [mem_blk]
  intro a
  match a with
  | ⟨0, _⟩ => show win0_3.index t 0 * 512 ≤ (i 0).val ∧ (i 0).val < win0_3.index t 0 * 512 + 512; rw [(index_o t).1, ht]; omega
  | ⟨1, _⟩ => show win0_3.index t 1 * 5504 ≤ (i 1).val ∧ (i 1).val < win0_3.index t 1 * 5504 + 5504; rw [(index_o t).2, ht]; omega

/-- So the region's result array ends holding the dense layer. -/
theorem final (c : Dev nD) : (dats m 0 c).arrAt 3 cfg0.N = result m c :=
  (dats m 0 c).arrAt_eq_of_cover 3 (result m c) (flushed_eq m c) cover

end Cert.KernelIdeal.Region

end
-- ==== Proof.KernelRun.lean ====
/-
  The whole program around the region, over the extended reals.

  Before the region the host prepares the three arrays the region reads: the activations flattened from
  [4, 2048, 4096] to [8192, 4096]; the weights, the 256-entry table looked up at every (wrapped) index of
  the [11008, 4096] index array; the bias vector as a [1, 11008] row.  Narrowing to a shorter float format
  is the identity on extended reals.  After the region the host unflattens the [8192, 11008] result to
  [4, 2048, 11008].  So the program's result is the batched dense layer of the activations, the looked-up
  weights and the bias, and the four arguments end unchanged.
-/
import proofs.«134942_j24704651886628_1_alg».proof.Proof.Region
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Region Cert.DenseAcc

variable (m : (ℓ : Loc nD τ sig) → Buf (Elt Ideal) ℓ) (ρ : Dev nD → PrngReg)

/-- The dequantised weights: the table looked up at each index, a negative index first moved up by 256. -/
abbrev weights (idx : (⟨S11008x4096, .i32⟩ : BufTy).Contents (Elt Ideal)) (table : (⟨S256, .f32⟩ : BufTy).Contents (Elt Ideal)) :
    (⟨S11008x4096, .f32⟩ : BufTy).Contents (Elt Ideal) :=
  Host.gather gather_S256_S11008x4096x1_S11008x4096_n_0_n_n_0_2_1 table
    (broadcastInDim S11008x4096x1 ![0, 1] bcast_S11008x4096_S11008x4096x1_0_1
      (select (cmpi .slt idx (broadcastInDim S11008x4096 ![] bcast_S_S11008x4096 (constantI S_ 32 0#32)))
        (addi idx (broadcastInDim S11008x4096 ![] bcast_S_S11008x4096 (constantI S_ 32 256#32))) idx))

/-- The region finds the activations flattened. -/
theorem x_entry (c : Dev nD) :
    xarr m c = shapeCast S8192x4096 (m ((c : Thread nD τ).loc main_arg0)) shapeCasts_S4x2048x4096_S8192x4096 := by
  have e : (V m c main_v9 : S8192x4096.Idx → Elt Ideal .bf16)
      = truncf (F := Ideal) .bf16 (shapeCast S8192x4096 (m ((c : Thread nD τ).loc main_arg0)) shapeCasts_S4x2048x4096_S8192x4096) bitsLt_bf16_f32 := by
    show StableHlo.after hostOps0 (fun b => m (c, b)) (Proc.devRef .tc main_v9) = _
    after_results <;> rfl
  exact e

/-- It finds the weights looked up. -/
theorem w_entry (c : Dev nD) :
    warr m c = weights (m ((c : Thread nD τ).loc main_arg1)) (m ((c : Thread nD τ).loc main_arg2)) := by
  have e : (V m c main_v7 : S11008x4096.Idx → Elt Ideal .bf16)
      = truncf (F := Ideal) .bf16 (weights (m ((c : Thread nD τ).loc main_arg1)) (m ((c : Thread nD τ).loc main_arg2))) bitsLt_bf16_f32 := by
    show StableHlo.after hostOps0 (fun b => m (c, b)) (Proc.devRef .tc main_v7) = _
    after_results <;> rfl
  exact e

/-- It finds the bias as a row: entry (0, n) is the vector's entry `n`. -/
theorem b_entry (c : Dev nD) (n : Fin 11008) :
    barr m c (ix2 0 n) = m ((c : Thread nD τ).loc main_arg3) (ix1 n) := by
  have e : (V m c main_v10 : S1x11008.Idx → Elt Ideal .f32)
      = shapeCast S1x11008 (m ((c : Thread nD τ).loc main_arg3)) shapeCasts_S11008_S1x11008 := by
    show StableHlo.after hostOps0 (fun b => m (c, b)) (Proc.devRef .tc main_v10) = _
    after_results <;> rfl
  show V m c main_v10 (ix2 0 n) = _
  rw [e]
  exact shapeCast_apply _ shapeCasts_S11008_S1x11008 (ix2 0 n) (ix1 n)
    (by rw [Shape.rowMajor_val_one, Shape.rowMajor_val_two]; show n.val = 0 * 11008 + n.val; omega)

/-- The program's result, as a function of its four arguments. -/
abbrev answer (c : Dev nD) : SO3.Idx → EReal :=
  layer (m ((c : Thread nD τ).loc main_arg0))
    (weights (m ((c : Thread nD τ).loc main_arg1)) (m ((c : Thread nD τ).loc main_arg2)))
    (m ((c : Thread nD τ).loc main_arg3)) shapeCasts_S4x2048x4096_S8192x4096 shapeCasts_S8192x11008_S4x2048x11008

/-- The region's result in terms of the arguments. -/
theorem result_eq (c : Dev nD) : (result m c : S8192x11008.Idx → EReal)
    = dense (shapeCast S8192x4096 (m ((c : Thread nD τ).loc main_arg0)) shapeCasts_S4x2048x4096_S8192x4096)
        (weights (m ((c : Thread nD τ).loc main_arg1)) (m ((c : Thread nD τ).loc main_arg2)))
        (fun n => m ((c : Thread nD τ).loc main_arg3) (ix1 n)) := by
  show dense (xarr m c) (warr m c) (fun n => barr m c (ix2 0 n)) = _
  rw [x_entry, w_entry, funext (b_entry m c)]

/-- After the region the host unflattens the result. -/
theorem tail_value (c : Dev nD) :
    Pipeline.afterTail₀ cfgs (dats m) 0 (V0 m) [hostOps1] c main_v12 = answer m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = result m c :=
    (Pipeline.withArrays_arr spec0 launch0.win.arr_inj c _ _ 3).trans (final m c)
  rw [e, result_eq]
  rfl

/-- Every weakly fair execution terminates with the result at the batched dense layer and the arguments unchanged. -/
theorem run : θ_run defs (onTc (τ := τ) (main (F := Ideal))) ⟨m, fun _ => 0, ρ⟩ fun r => ∀ c : Dev nD,
      r.2.mem ((c.tc : Thread nD τ).loc main_v12) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's result is the batched dense layer.

  The reference flattens the activations, takes the whole [8192, 4096] × [11008, 4096]ᵀ product in one
  contraction over all 4096 positions, unflattens it to [4, 2048, 11008] and adds the bias vector broadcast
  along the last axis.  Entry (a, s, n) of the unflattened product is entry (2048 · a + s, n) of the flat one,
  and the broadcast bias there is `b n`; the batched dense layer adds `b n` before unflattening, at the same
  flat entry.  The weights are the same table lookup on both sides and are never opened.
-/
import proofs.«134942_j24704651886628_1_alg».proof.Proof.Gen.ReferenceIdeal.Run
import proofs.«134942_j24704651886628_1_alg».proof.Proof.Gen.ReferenceIdeal.Read
import proofs.«134942_j24704651886628_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.DenseAcc

/-- The reference's last stage is the batched dense layer of the activations, its looked-up weights and the bias. -/
theorem stage_eq (x0 : (⟨S4x2048x4096, .f32⟩ : BufTy).Contents (Elt Ideal)) (x1 : (⟨S11008x4096, .i32⟩ : BufTy).Contents (Elt Ideal))
    (x2 : (⟨S256, .f32⟩ : BufTy).Contents (Elt Ideal)) (x3 : (⟨S11008, .f32⟩ : BufTy).Contents (Elt Ideal)) :
    val_main_v12 (F := Ideal) x0 x1 x2 x3
      = layer x0 (val_main_v6 (F := Ideal) x1 x2) x3 shapeCasts_S4x2048x4096_S8192x4096 shapeCasts_S8192x11008_S4x2048x11008 := by
  funext i
  rw [val_main_v12_apply, val_main_v9_apply, val_main_v8_apply, val_main_v11_apply, val_main_v10_apply]
  unfold layer
  rw [shapeCast_apply _ shapeCasts_S8192x11008_S4x2048x11008 i (idx_main_v9 i)
    (by rewrite [Shape.rowMajor_val_two, Shape.rowMajor_val_three]; have h0 : (i 0).val < 4 := (i 0).isLt; have h1 : (i 1).val < 2048 := (i 1).isLt; have h2 : (i 2).val < 11008 := (i 2).isLt; show (((i 0).val * 2048 + (i 1).val) * 11008 + (i 2).val) / 11008 * 11008 + (((i 0).val * 2048 + (i 1).val) * 11008 + (i 2).val) % 11008 = ((i 0).val * 2048 + (i 1).val) * 11008 + (i 2).val; omega)]
  unfold dense
  show (∑ k : Fin 4096, val_main_v7 (F := Ideal) x0 (lidx_main_v8 (idx_main_v9 i) k) * val_main_v6 (F := Ideal) x1 x2 (ridx_main_v8 (idx_main_v9 i) k))
      + x3 (idx_main_v10 (idx_main_v11 i))
    = (∑ k : Fin 4096, shapeCast S8192x4096 x0 shapeCasts_S4x2048x4096_S8192x4096 (ix2 (idx_main_v9 i 0) k) * val_main_v6 (F := Ideal) x1 x2 (ix2 (idx_main_v9 i 1) k))
      + x3 (ix1 (idx_main_v9 i 1))
  have hl : ∀ k : Fin 4096, lidx_main_v8 (idx_main_v9 i) k = ix2 (idx_main_v9 i 0) k := fun k => funext fun a => by
    match a with
    | ⟨0, _⟩ => rfl
    | ⟨1, _⟩ => rfl
  have hr : ∀ k : Fin 4096, ridx_main_v8 (idx_main_v9 i) k = ix2 (idx_main_v9 i 1) k := fun k => funext fun a => by
    match a with
    | ⟨0, _⟩ => rfl
    | ⟨1, _⟩ => rfl
  have hb : idx_main_v10 (idx_main_v11 i) = ix1 (idx_main_v9 i 1) := funext fun a => Fin.ext (by
    match a with
    | ⟨0, _⟩ => show (i 2).val = (((i 0).val * 2048 + (i 1).val) * 11008 + (i 2).val) % 11008; have h2 : (i 2).val < 11008 := (i 2).isLt; omega)
  rw [hb]
  refine congrArg (· + x3 (ix1 (idx_main_v9 i 1))) (Finset.sum_congr rfl fun k _ => ?_)
  rw [hl k, hr k]
  rfl

end Cert.ReferenceIdeal.RefValue

end
-- ==== Proof.lean ====
/-
  A linear layer with codebook-quantised weights: `y = x · Wᵀ + b` on activations x : f32[4, 2048, 4096], where
  `W (n, k) = codebook[indices (n, k)]` (a 256-entry table looked up at an int32[11008, 4096] index array) and
  b : f32[11008].

  The kernel looks the weights up on the host, flattens the activations to [8192, 4096] and runs one tiled
  matrix product on a 16 × 2 × 16 grid: [512, 256] activation blocks against [5504, 256] weight blocks, a
  [512, 5504] accumulator reset at the first of the 16 contraction stretches, each stretch adding its block
  product, the bias row added at the last stretch when the block is written out.  The reference takes the
  whole product in one contraction and adds the bias after unflattening.

  Over the extended reals the two agree entry by entry.  Both look the weights up by the same term, never
  opened.  Narrowing to a shorter float format is the identity.  The kernel's accumulator after stretch `j`
  is the partial sum of the products over the first `256 · (j + 1)` contraction positions (induction over the
  grid points), so after the sixteenth it is the reference's sum over all 4096: only associativity and
  commutativity of addition and `0 + a = a` are used, which hold for all extended reals, so the finiteness
  of the inputs is not needed.  The bias is added at the same flat entry on both sides.

  The ideal pass rewrote nothing, so the preservation claim is trivial.  The kernel's frames are the
  generated ones; the reference's frame is its generated run with the result dropped.
-/
import proofs.«134942_j24704651886628_1_alg».proof.Defs
import proofs.«134942_j24704651886628_1_alg».proof.Proof.Gen.Kernel
import proofs.«134942_j24704651886628_1_alg».proof.Proof.Gen.Kernel.Skeleton
import proofs.«134942_j24704651886628_1_alg».proof.Proof.Gen.Kernel.Launch
import proofs.«134942_j24704651886628_1_alg».proof.Proof.Gen.Kernel.Points
import proofs.«134942_j24704651886628_1_alg».proof.Proof.Gen.Kernel.Frame
import proofs.«134942_j24704651886628_1_alg».proof.Proof.Gen.KernelIdeal
import proofs.«134942_j24704651886628_1_alg».proof.Proof.Gen.KernelIdeal.Skeleton
import proofs.«134942_j24704651886628_1_alg».proof.Proof.Gen.KernelIdeal.Launch
import proofs.«134942_j24704651886628_1_alg».proof.Proof.Gen.KernelIdeal.Points
import proofs.«134942_j24704651886628_1_alg».proof.Proof.Gen.KernelIdeal.Frame
import proofs.«134942_j24704651886628_1_alg».proof.Proof.Gen.ReferenceIdeal
import proofs.«134942_j24704651886628_1_alg».proof.Proof.Gen.ReferenceIdeal.Run
import proofs.«134942_j24704651886628_1_alg».proof.Proof.Gen.ReferenceIdeal.Read
import proofs.«134942_j24704651886628_1_alg».proof.Proof.Gen.Pre_finite_inputs
import proofs.«134942_j24704651886628_1_alg».proof.Proof.KernelRun
import proofs.«134942_j24704651886628_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs look the weights up by the same term: the table at each index, a negative index moved up by 256. -/
theorem weights_eq (x1 : (⟨Cert.ReferenceIdeal.S11008x4096, .i32⟩ : BufTy).Contents (Elt Ideal))
    (x2 : (⟨Cert.ReferenceIdeal.S256, .f32⟩ : BufTy).Contents (Elt Ideal)) :
    Cert.ReferenceIdeal.Read.val_main_v6 (F := Ideal) x1 x2 = Cert.KernelIdeal.Whole.weights x1 x2 := rfl

/-- From memories agreeing on the four arguments both programs end with the batched dense layer of the
    activations, the looked-up weights and the bias. -/
theorem algebraic : Cert.algebraic_KernelIdeal_ReferenceIdeal := by
  intro m ρ m' ρ' _ hagree
  refine ⟨fun c => Cert.KernelIdeal.Whole.answer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.stage_eq, (hagree c).1, (hagree c).2.1,
    (hagree c).2.2.1, (hagree c).2.2.2, weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
